-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S64x2048 : Shape := ⟨2, ![64, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S32768x2048 .f32) (main_arg1 : FVec F S64x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S32768x2048 : Shape := ⟨2, ![32768, 2048]⟩
abbrev S64x2048 : Shape := ⟨2, ![64, 2048]⟩
abbrev S_ : Shape := ⟨0, ![]⟩
abbrev S64 : Shape := ⟨1, ![64]⟩
abbrev S1x64 : Shape := ⟨2, ![1, 64]⟩
abbrev S32768x64 : Shape := ⟨2, ![32768, 64]⟩
abbrev S512x2048 : Shape := ⟨2, ![512, 2048]⟩
abbrev S512x64 : Shape := ⟨2, ![512, 64]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S64x2048, .f32⟩
  | .hbm, ⟨2, _⟩ => ⟨S64x2048, .bf16⟩
  | .hbm, ⟨3, _⟩ => ⟨S64x2048, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S32768x64, .f32⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S64x2048, .f32⟩
  | .local _ .vmem, ⟨3, _⟩ => ⟨S64x2048, .bf16⟩
  | .local _ .vmem, ⟨4, _⟩ => ⟨S1x64, .f32⟩
  | .local _ .vmem, ⟨5, _⟩ => ⟨S512x64, .f32⟩
  | .local _ .vmem, ⟨6, _⟩ => ⟨S512x64, .f32⟩
  | .local _ .vmem, ⟨7, _⟩ => ⟨S512x2048, .f32⟩
  | .local _ .vmem, ⟨8, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  reducesTo_S64x2048_S64_d1 : S64x2048.ReducesTo [1] S64
  h_S_ : 0 < S_.numel
  bcast_S64_S1x64_1 : S64.BroadcastsInDim S1x64 (![1] : Fin 1 → Fin S1x64.rank)
  inb_S512x2048_S512x2048_0_0 : ∀ a, (![0, 0] : Fin 2 → Nat) a + S512x2048.size a ≤ S512x2048.size a
  h_S512x2048 : 0 < S512x2048.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S512x2048_S512 : S512x2048.Reduces [1] S512
  shapeCasts_S512_S512x1 : S512.ShapeCasts S512x1
  broadcasts_S512x1_S512x64 : S512x1.Broadcasts S512x64
  broadcasts_S1x64_S512x64 : S1x64.Broadcasts S512x64
  inb_S512x64_S512x64_0_0 : ∀ a, (![0, 0] : Fin 2 → Nat) a + S512x64.size a ≤ S512x64.size a
  h_S512x64 : 0 < S512x64.numel
  reduces_S512x64_S512 : S512x64.Reduces [1] S512
  dot_S512x2048_S64x2048_S512x64_1_1_0_0_n_n_wf : DotDims.WF S512x2048 S64x2048 S512x64 [1] [1] [0] [0] [] []
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .bf16 = 32 ∨ (Rect.block (s := S64x2048) S64x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S32768x64.size a
  hwx0_4 : ∀ i : grid0.Coords, EltTy.bits .f32 = 32 ∨ (Rect.block (s := S32768x64) S512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S32768x2048.size a
  hwx0_5 : ∀ i : grid0.Coords, EltTy.bits .f32 = 32 ∨ (Rect.block (s := S32768x2048) S512x2048.size (cc0_transform_5 i) (hinb0_5 i)).WholeWords (EltTy.packing .f32)

variable [Facts₀]

def dot_S512x2048_S64x2048_S512x64_1_1_0_0_n_n : DotDims S512x2048 S64x2048 S512x64 where
  lhsContracting := [1]
  rhsContracting := [1]
  lhsNonContracting := [0]
  rhsNonContracting := [0]
  lhsBatch := []
  rhsBatch := []
  wf := dot_S512x2048_S64x2048_S512x64_1_1_0_0_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S64x2048 : Shape := ⟨2, ![64, 2048]⟩
abbrev S32768x64 : Shape := ⟨2, ![32768, 64]⟩
abbrev S_ : Shape := ⟨0, ![]⟩
abbrev S32768 : Shape := ⟨1, ![32768]⟩
abbrev S64 : Shape := ⟨1, ![64]⟩
abbrev S32768x1 : Shape := ⟨2, ![32768, 1]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S64x2048, .f32⟩
  | .hbm, ⟨2, _⟩ => ⟨S32768x64, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S64x2048, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S32768x1, .f32⟩
  | .hbm, ⟨12, _⟩ => ⟨S1x64, .f32⟩
  | .hbm, ⟨13, _⟩ => ⟨S32768x64, .f32⟩
  | .hbm, ⟨14, _⟩ => ⟨S32768x64, .f32⟩
  | .hbm, ⟨15, _⟩ => ⟨S32768x64, .f32⟩
  | .hbm, ⟨16, _⟩ => ⟨S_, .f32⟩
  | .hbm, ⟨17, _⟩ => ⟨S32768x64, .f32⟩
  | .hbm, ⟨18, _⟩ => ⟨S32768x64, .f32⟩
  | .hbm, ⟨19, _⟩ => ⟨S32768x64, .f32⟩
  | .hbm, ⟨20, _⟩ => ⟨S_, .f32⟩
  | .hbm, ⟨21, _⟩ => ⟨S32768, .f32⟩
  | .hbm, ⟨22, _⟩ => ⟨S_, .f32⟩
  | .hbm, ⟨23, _⟩ => ⟨S32768, .f32⟩
  | .hbm, ⟨24, _⟩ => ⟨S32768, .f32⟩
  | .hbm, ⟨25, _⟩ => ⟨S32768x1, .f32⟩
  | .hbm, ⟨26, _⟩ => ⟨S32768x64, .f32⟩
  | .hbm, ⟨27, _⟩ => ⟨S32768x64, .f32⟩
  | .hbm, ⟨28, _⟩ => ⟨S32768x64, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S32768x64, .f32⟩
  | .hbm, ⟨33, _⟩ => ⟨S32768x64, .f32⟩
  | .hbm, ⟨34, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S32768x2048_S32768_d1 : S32768x2048.ReducesTo [1] S32768
  h_S_ : 0 < S_.numel
  reducesTo_S64x2048_S64_d1 : S64x2048.ReducesTo [1] S64
  bcast_S32768_S32768x1_0 : S32768.BroadcastsInDim S32768x1 (![0] : Fin 1 → Fin S32768x1.rank)
  bcast_S64_S1x64_1 : S64.BroadcastsInDim S1x64 (![1] : Fin 1 → Fin S1x64.rank)
  bcast_S32768x1_S32768x64_0_1 : S32768x1.BroadcastsInDim S32768x64 (![0, 1] : Fin 2 → Fin S32768x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  reducesTo_S32768x64_S32768_d1 : S32768x64.ReducesTo [1] S32768
  bcast_S_S32768 : S_.BroadcastsInDim S32768 (![] : Fin 0 → Fin S32768.rank)
  dot_S32768x2048_S64x2048_S32768x64_1_1_0_0_n_n_wf : DotDims.WF S32768x2048 S64x2048 S32768x64 [1] [1] [0] [0] [] []
  dot_S32768x64_S64x2048_S32768x2048_1_0_0_1_n_n_wf : DotDims.WF S32768x64 S64x2048 S32768x2048 [1] [0] [0] [1] [] []

variable [Facts₀]

def dot_S32768x2048_S64x2048_S32768x64_1_1_0_0_n_n : DotDims S32768x2048 S64x2048 S32768x64 where
  lhsContracting := [1]
  rhsContracting := [1]
  lhsNonContracting := [0]
  rhsNonContracting := [0]
  lhsBatch := []
  rhsBatch := []
  wf := dot_S32768x2048_S64x2048_S32768x64_1_1_0_0_n_n_wf
def dot_S32768x64_S64x2048_S32768x2048_1_0_0_1_n_n : DotDims S32768x64 S64x2048 S32768x2048 where
  lhsContracting := [1]
  rhsContracting := [0]
  lhsNonContracting := [0]
  rhsNonContracting := [1]
  lhsBatch := []
  rhsBatch := []
  wf := dot_S32768x64_S64x2048_S32768x2048_1_0_0_1_n_n_wf

class Facts : Prop extends Facts₀ where

variable [Facts]
-- ==== Proof.Spec.lean ====
/-
  Cosine-similarity routing over the extended reals, one row at a time.

  For a row z of 2048 numbers, 64 keys K e (each 2048 numbers) and a number nrm e per key:

    sim z K nrm e = (Σ_d z d · K e d) / max (√(Σ_d z d²) · nrm e) ε        the cosine of z against key e
    rowMax s      = the maximum of s over the 64 keys, starting from -∞
    expo s e      = exp (s e - rowMax s)
    soft s e      = expo s e / Σ_e' expo s e'                              the softmax of s
    mix s K₂ d    = Σ_e soft s e · K₂ e d                                  the softmax-weighted sum of the keys

  With nrm the keys' own norms (keyNorm) these are the two results: entry (n, e) of the similarity is
  sim (row n of z) K (keyNorm K) e and entry (n, d) of the weighted expert is mix of that row's similarities.
  ε and -∞ stay the bit patterns both programs print; neither is evaluated.
-/
import Idealize.ShloMosaic.PureOps.Ideal
import Idealize.ShloMosaic.PureOps.Ideal.Laws
import Idealize.ShloMosaic.Lib.ValueIdx

noncomputable section

open scoped BigOperators

namespace Cert.Routing

open Idealize.ShloMosaic Idealize.ShloMosaic.ValueIdx

/-- The clamp under the quotient: the f32 pattern of 1e-8. -/
def eps : EReal := Ideal.ofBits .f32 0x322BCC77#32
/-- Where a row's maximum starts: the f32 pattern of -∞. -/
def negInf : EReal := Ideal.ofBits .f32 0xFF800000#32

/-- The inner product of two rows. -/
def dot (z k : Fin 2048 → EReal) : EReal := ∑ d : Fin 2048, z d * k d
/-- A row's Euclidean norm. -/
def norm (z : Fin 2048 → EReal) : EReal := Ideal.sqrt (dot z z)

/-- The cosine of row `z` against key `e`, the keys' norms given as `nrm`. -/
def sim (z : Fin 2048 → EReal) (K : Fin 64 → Fin 2048 → EReal) (nrm : Fin 64 → EReal) (e : Fin 64) : EReal :=
  Ideal.div (dot z (K e)) (max (norm z * nrm e) eps)

/-- The maximum of 64 numbers, from -∞. -/
def rowMax (s : Fin 64 → EReal) : EReal := (Finset.univ : Finset (Fin 64)).fold max negInf s

def expo (s : Fin 64 → EReal) (e : Fin 64) : EReal := Ideal.exp (s e - rowMax s)
def soft (s : Fin 64 → EReal) (e : Fin 64) : EReal := Ideal.div (expo s e) (∑ e' : Fin 64, expo s e')
def mix (s : Fin 64 → EReal) (K₂ : Fin 64 → Fin 2048 → EReal) (d : Fin 2048) : EReal := ∑ e : Fin 64, soft s e * K₂ e d

/-- Taking the maximum with the starting value once more changes nothing: the fold already lies above it. -/
theorem max_negInf_rowMax (s : Fin 64 → EReal) : max negInf (rowMax s) = rowMax s :=
  max_eq_right ((Finset.le_fold_max negInf).mpr (Or.inl le_rfl))

/-! ## The arrays -/

/-- Row `n` of the [32768, 2048] input. -/
abbrev zRow (Z : (⟨2, ![32768, 2048]⟩ : Shape).Idx → EReal) (n : Fin 32768) : Fin 2048 → EReal := fun d => Z (ix2 n d)
/-- The [64, 2048] keys by key and coordinate. -/
abbrev keys (K : (⟨2, ![64, 2048]⟩ : Shape).Idx → EReal) : Fin 64 → Fin 2048 → EReal := fun e d => K (ix2 e d)
/-- The keys' norms. -/
def keyNorm (K : (⟨2, ![64, 2048]⟩ : Shape).Idx → EReal) (e : Fin 64) : EReal := norm (keys K e)

/-- The similarity array. -/
def simArr (Z : (⟨2, ![32768, 2048]⟩ : Shape).Idx → EReal) (K : (⟨2, ![64, 2048]⟩ : Shape).Idx → EReal) :
    (⟨2, ![32768, 64]⟩ : Shape).Idx → EReal :=
  fun i => sim (zRow Z (i 0)) (keys K) (keyNorm K) (i 1)

/-- The weighted-expert array. -/
def mixArr (Z : (⟨2, ![32768, 2048]⟩ : Shape).Idx → EReal) (K : (⟨2, ![64, 2048]⟩ : Shape).Idx → EReal) :
    (⟨2, ![32768, 2048]⟩ : Shape).Idx → EReal :=
  fun i => mix (sim (zRow Z (i 0)) (keys K) (keyNorm K)) (keys K) (i 1)

end Cert.Routing

end
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelPay.lean ====
/-
  What the kernel body stores, entry by entry, as the row-wise cosine routing of Spec.lean.

  The body works on a block of 512 rows of z (x0), the 64 keys twice (x1 for the first product, x2 for the second)
  and one row of 64 key norms (x3). Entry (p, q) of the first stored value is the cosine of block row p against key q;
  entry (p, d) of the second is the softmax of row p's cosines, mixed over the keys x2, at coordinate d.

  The steps: each matrix product at an entry is a sum over its one contracted axis; each reduction along the lanes
  of a [512, n] value at row p is a sum (or a maximum) over that row; a per-row value kept as a column and
  broadcast back over 64 lanes reads, at (p, q), the value of row p; the remaining operations are entrywise.
-/
import proofs.«407764_j71502615544488_3_alg».proof.Proof.Gen.KernelIdeal.Skeleton
import proofs.«407764_j71502615544488_3_alg».proof.Proof.Spec
import proofs.«407764_j71502615544488_3_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Routing

/-! ## The first product: rows of the block against the keys, contracted over the 2048 coordinates -/

theorem lhs_dots_0 (i : S512x64.Idx) (q : dot_S512x2048_S64x2048_S512x64_1_1_0_0_n_n.contr.Idx) :
    (dot_S512x2048_S64x2048_S512x64_1_1_0_0_n_n.lhsIdx i q 0).val = (i 0).val := by
  unfold DotDims.lhsIdx
  rw [dif_neg (show ¬(0 : Fin S512x2048.rank) ∈ dot_S512x2048_S64x2048_S512x64_1_1_0_0_n_n.lhsBatch by decide), dif_pos (show (0 : Fin S512x2048.rank) ∈ dot_S512x2048_S64x2048_S512x64_1_1_0_0_n_n.lhsNonContracting by decide)]
  rfl
theorem lhs_dots_1 (i : S512x64.Idx) (q : dot_S512x2048_S64x2048_S512x64_1_1_0_0_n_n.contr.Idx) :
    (dot_S512x2048_S64x2048_S512x64_1_1_0_0_n_n.lhsIdx i q 1).val = (q ⟨0, by decide⟩).val :=
  dot_S512x2048_S64x2048_S512x64_1_1_0_0_n_n.lhsIdx_val_of_single rfl i q
theorem rhs_dots_0 (i : S512x64.Idx) (q : dot_S512x2048_S64x2048_S512x64_1_1_0_0_n_n.contr.Idx) :
    (dot_S512x2048_S64x2048_S512x64_1_1_0_0_n_n.rhsIdx i q 0).val = (i 1).val := by
  unfold DotDims.rhsIdx
  rw [dif_neg (show ¬(0 : Fin S64x2048.rank) ∈ dot_S512x2048_S64x2048_S512x64_1_1_0_0_n_n.rhsBatch by decide), dif_pos (show (0 : Fin S64x2048.rank) ∈ dot_S512x2048_S64x2048_S512x64_1_1_0_0_n_n.rhsNonContracting by decide)]
  rfl
theorem rhs_dots_1 (i : S512x64.Idx) (q : dot_S512x2048_S64x2048_S512x64_1_1_0_0_n_n.contr.Idx) :
    (dot_S512x2048_S64x2048_S512x64_1_1_0_0_n_n.rhsIdx i q 1).val = (q ⟨0, by decide⟩).val :=
  dot_S512x2048_S64x2048_S512x64_1_1_0_0_n_n.rhsIdx_val_of_single rfl i q

/-- Entry (p, q) of the first product is the inner product of block row p with key q. -/
theorem dots_apply (x0 : FVec Ideal S512x2048 .f32) (x1 : FVec Ideal S64x2048 .f32) (p : Fin 512) (q : Fin 64) :
    matmul dot_S512x2048_S64x2048_S512x64_1_1_0_0_n_n (some .fp32) x0 x1 (constant S512x64 .f32 0x00000000#32) (ix2 p q)
      = dot (fun d => x0 (ix2 p d)) (fun d => x1 (ix2 q d)) := by
  simp only [matmul]
  rw [Ideal.matmul_constant_zero_apply, ← Equiv.sum_comp (contrEquiv1 dot_S512x2048_S64x2048_S512x64_1_1_0_0_n_n 2048 rfl rfl).symm]
  unfold dot
  refine Finset.sum_congr rfl fun k _ => ?_
  have hk := contrEquiv1_symm_val dot_S512x2048_S64x2048_S512x64_1_1_0_0_n_n 2048 rfl rfl k
  have el : dot_S512x2048_S64x2048_S512x64_1_1_0_0_n_n.lhsIdx (ix2 p q) ((contrEquiv1 dot_S512x2048_S64x2048_S512x64_1_1_0_0_n_n 2048 rfl rfl).symm k) = ix2 p k := funext fun a => Fin.ext (by
    match a with
    | ⟨0, _⟩ => exact lhs_dots_0 _ _
    | ⟨1, _⟩ => exact (lhs_dots_1 _ _).trans hk)
  have er : dot_S512x2048_S64x2048_S512x64_1_1_0_0_n_n.rhsIdx (ix2 p q) ((contrEquiv1 dot_S512x2048_S64x2048_S512x64_1_1_0_0_n_n 2048 rfl rfl).symm k) = ix2 q k := funext fun a => Fin.ext (by
    match a with
    | ⟨0, _⟩ => exact rhs_dots_0 _ _
    | ⟨1, _⟩ => exact (rhs_dots_1 _ _).trans hk)
  rw [el, er]

/-! ## The second product: a [512, 64] value against the keys, contracted over the 64 keys -/

theorem lhs_mix_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_mix_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_mix_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_mix_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- Entry (p, d) of the second product sums, over the keys e, the left value at (p, e) times key e at d. -/
theorem mixprod_apply (w : FVec Ideal S512x64 .bf16) (x2 : FVec Ideal S64x2048 .bf16) (p : Fin 512) (d : Fin 2048) :
    matmul dot_S512x64_S64x2048_S512x2048_1_0_0_1_n_n none w x2 (constant S512x2048 .f32 0x00000000#32) (ix2 p d)
      = ∑ e : Fin 64, w (ix2 p e) * x2 (ix2 e d) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p d) ((contrEquiv1 dot_S512x64_S64x2048_S512x2048_1_0_0_1_n_n 64 rfl rfl).symm k) = ix2 p k := funext fun a => Fin.ext (by
    match a with
    | ⟨0, _⟩ => exact lhs_mix_0 _ _
    | ⟨1, _⟩ => exact (lhs_mix_1 _ _).trans hk)
  have er : dot_S512x64_S64x2048_S512x2048_1_0_0_1_n_n.rhsIdx (ix2 p d) ((contrEquiv1 dot_S512x64_S64x2048_S512x2048_1_0_0_1_n_n 64 rfl rfl).symm k) = ix2 k d := funext fun a => Fin.ext (by
    match a with
    | ⟨0, _⟩ => exact (rhs_mix_0 _ _).trans hk
    | ⟨1, _⟩ => exact rhs_mix_1 _ _)
  rw [el, er]

/-! ## Reductions along a row -/

/-- The lane sum of a [512, 2048] value at row p is the sum over that row. -/
theorem rowsum2048 (src : FVec Ideal S512x2048 .f32) (hφ : FKind.Formats .f32)
    (hacc : (0x00000000#32 : BitVec 32) = 0x00000000#32) (p : Fin 512) :
    multiReduction .add [1] S512 src 0x00000000#32 reduces_S512x2048_S512 hφ hacc (ix1 p) = ∑ d : Fin 2048, src (ix2 p d) := by
  refine (Ideal.multiReduction_add_single src 0x00000000#32 reduces_S512x2048_S512 hφ hacc (ix1 p)).trans ?_
  refine Finset.sum_congr rfl fun k _ => ?_
  exact congrArg src (funext fun a => Fin.ext (by match a with | ⟨0, _⟩ => rfl | ⟨1, _⟩ => rfl))

/-- The lane sum of a [512, 64] value at row p is the sum over that row. -/
theorem rowsum64 (src : FVec Ideal S512x64 .f32) (hφ : FKind.Formats .f32)
    (hacc : (0x00000000#32 : BitVec 32) = 0x00000000#32) (p : Fin 512) :
    multiReduction .add [1] S512 src 0x00000000#32 reduces_S512x64_S512 hφ hacc (ix1 p) = ∑ e : Fin 64, src (ix2 p e) := by
  refine (Ideal.multiReduction_add_single src 0x00000000#32 reduces_S512x64_S512 hφ hacc (ix1 p)).trans ?_
  refine Finset.sum_congr rfl fun k _ => ?_
  exact congrArg src (funext fun a => Fin.ext (by match a with | ⟨0, _⟩ => rfl | ⟨1, _⟩ => rfl))

/-- The lane maximum of a [512, 64] value at row p is the maximum over that row, from -∞. -/
theorem rowmax64 (src : FVec Ideal S512x64 .f32) (hφ : FKind.Formats .f32)
    (hacc : (0xFF800000#32 : BitVec 32) = 0xFF800000#32) (p : Fin 512) :
    multiReduction .maximumf [1] S512 src 0xFF800000#32 reduces_S512x64_S512 hφ hacc (ix1 p) = rowMax (fun e => src (ix2 p e)) := by
  refine (Ideal.multiReduction_maximumf_single src 0xFF800000#32 reduces_S512x64_S512 hφ hacc (ix1 p)).trans ?_
  unfold rowMax negInf
  refine congrArg (fun f => (Finset.univ : Finset (Fin 64)).fold max (Ideal.ofBits .f32 0xFF800000#32) f) ?_
  funext k
  exact congrArg src (funext fun a => Fin.ext (by match a with | ⟨0, _⟩ => rfl | ⟨1, _⟩ => rfl))

/-- A per-row value kept as a column and broadcast over the 64 lanes reads, at (p, q), the value of row p. -/
theorem keep64 (v : FVec Ideal S512 .f32) (p : Fin 512) (q : Fin 64) :
    broadcastTo S512x64 (shapeCast S512x1 v shapeCasts_S512_S512x1) broadcasts_S512x1_S512x64 (ix2 p q) = v (ix1 p) :=
  (Cert.LibKeepdims.broadcastTo_a1_ab_apply _ broadcasts_S512x1_S512x64 p q).trans
    (Cert.LibKeepdims.shapeCast_a_a1_apply v shapeCasts_S512_S512x1 p 0)

/-- The same with the square root taken on the column. -/
theorem keep64_sqrt (v : FVec Ideal S512 .f32) (p : Fin 512) (q : Fin 64) :
    broadcastTo S512x64 (sqrt (shapeCast S512x1 v shapeCasts_S512_S512x1)) broadcasts_S512x1_S512x64 (ix2 p q) = Ideal.sqrt (v (ix1 p)) :=
  (Cert.LibKeepdims.broadcastTo_a1_ab_apply _ broadcasts_S512x1_S512x64 p q).trans
    (congrArg Ideal.sqrt (Cert.LibKeepdims.shapeCast_a_a1_apply v shapeCasts_S512_S512x1 p 0))

/-- The one row of key norms broadcast down the 512 rows reads, at (p, q), the norm of key q. -/
theorem normrow_apply (x3 : FVec Ideal S1x64 .f32) (p : Fin 512) (q : Fin 64) :
    broadcastTo S512x64 (shapeCast S1x64 x3 shapeCasts_S1x64_S1x64) broadcasts_S1x64_S512x64 (ix2 p q) = x3 (ix2 (0 : Fin 1) q) := by
  rw [shapeCast_self]
  exact broadcastTo_1b_ab_apply x3 broadcasts_S1x64_S512x64 p q

/-! ## The two stored values -/

/-- THE FIRST STORED VALUE at (p, q): the cosine of block row p against key q, with the loaded norms. -/
theorem pay1_apply (x0 : FVec Ideal S512x2048 .f32) (x1 : FVec Ideal S64x2048 .f32) (x3 : FVec Ideal S1x64 .f32) (p : Fin 512) (q : Fin 64) :
    k0_pay1 (F := Ideal) x0 x1 x3 (ix2 p q)
      = sim (fun d => x0 (ix2 p d)) (fun e d => x1 (ix2 e d)) (fun e => x3 (ix2 (0 : Fin 1) e)) q := by
  unfold k0_pay1
  simp only [divf_apply, maximumf_apply, mulf_apply, broadcast_apply]
  rw [dots_apply, keep64_sqrt, normrow_apply, rowsum2048]
  rfl

/-- The column of row maxima of a [512, 64] value, broadcast back over the lanes. -/
abbrev maxB (P : FVec Ideal S512x64 .f32) (hφ : FKind.Formats .f32) (hm : (0xFF800000#32 : BitVec 32) = 0xFF800000#32) : FVec Ideal S512x64 .f32 :=
  broadcastTo S512x64 (shapeCast S512x1 (multiReduction .maximumf [1] S512 P 0xFF800000#32 reduces_S512x64_S512 hφ hm) shapeCasts_S512_S512x1) broadcasts_S512x1_S512x64

/-- It reads, at (p, e), the maximum of row p. -/
theorem maxB_apply (P : FVec Ideal S512x64 .f32) (hφ : FKind.Formats .f32) (hm : (0xFF800000#32 : BitVec 32) = 0xFF800000#32) (p : Fin 512) (e : Fin 64) :
    maxB P hφ hm (ix2 p e) = rowMax (fun e => P (ix2 p e)) :=
  (keep64 _ p e).trans (rowmax64 P hφ hm p)

/-- The exponential of a value less its row maximum, at (p, e). -/
theorem expB_apply (P : FVec Ideal S512x64 .f32) (hφ : FKind.Formats .f32) (hm : (0xFF800000#32 : BitVec 32) = 0xFF800000#32) (p : Fin 512) (e : Fin 64) :
    exp (subf P (maxB P hφ hm)) (ix2 p e) = expo (fun e => P (ix2 p e)) e :=
  congrArg (fun t => Ideal.exp (P (ix2 p e) - t)) (maxB_apply P hφ hm p e)

/-- The softmax along the rows of a [512, 64] value, at (p, e). -/
theorem softB_apply (P : FVec Ideal S512x64 .f32) (hφ : FKind.Formats .f32) (hm : (0xFF800000#32 : BitVec 32) = 0xFF800000#32)
    (hs : (0x00000000#32 : BitVec 32) = 0x00000000#32) (p : Fin 512) (e : Fin 64) :
    divf (exp (subf P (maxB P hφ hm)))
        (broadcastTo S512x64 (shapeCast S512x1 (multiReduction .add [1] S512 (exp (subf P (maxB P hφ hm))) 0x00000000#32 reduces_S512x64_S512 hφ hs) shapeCasts_S512_S512x1) broadcasts_S512x1_S512x64)
        (ix2 p e)
      = soft (fun e => P (ix2 p e)) e :=
  congrArg₂ Ideal.div (expB_apply P hφ hm p e)
    ((keep64 _ p e).trans ((rowsum64 _ hφ hs p).trans (Finset.sum_congr rfl fun e' _ => expB_apply P hφ hm p e')))

/-- THE SECOND STORED VALUE at (p, d): the softmax of row p of the first, mixed over the keys x2. -/
theorem pay2_apply (x0 : FVec Ideal S512x2048 .f32) (x1 : FVec Ideal S64x2048 .f32) (x2 : FVec Ideal S64x2048 .bf16) (x3 : FVec Ideal S1x64 .f32) (p : Fin 512) (d : Fin 2048) :
    k0_pay2 (F := Ideal) x0 x1 x2 x3 (ix2 p d)
      = mix (fun e => k0_pay1 (F := Ideal) x0 x1 x3 (ix2 p e)) (fun e d => x2 (ix2 e d)) d := by
  unfold k0_pay2
  dsimp only
  generalize k0_pay1 (F := Ideal) x0 x1 x3 = P
  rw [mixprod_apply, shapeCast_self]
  unfold mix
  refine Finset.sum_congr rfl fun e _ => ?_
  exact congrArg (· * x2 (ix2 e d)) (softB_apply P _ _ _ p e)

end Cert.KernelIdeal.Pay

end
-- ==== Proof.KernelArr.lean ====
/-
  From what one grid point writes back to the two result arrays.

  The grid has 64 points; point t works on rows 512·t … 512·t + 511 of z. Its input blocks are those rows of z,
  the whole key array (twice: as given, and narrowed to bf16 by the host, which over the extended reals changes
  nothing) and the one row of key norms the host computed (the square root of each key's sum of squares). Its two
  output blocks are rows 512·t … of the similarity and of the weighted expert. The 64 blocks tile each result,
  so each result array ends as ONE function of the two arguments: `simArr` and `mixArr` of Spec.lean.
-/
import proofs.«407764_j71502615544488_3_alg».proof.Proof.Gen.KernelIdeal.Value
import proofs.«407764_j71502615544488_3_alg».proof.Proof.KernelPay
import Idealize.ShloMosaic.Lib.Pipeline.Value
import Idealize.ShloMosaic.Lib.StableHlo.Run
import Idealize.ShloMosaic.Lib.Tactic

noncomputable section

open scoped BigOperators

namespace Cert.KernelIdeal.Arr

open Cert.KernelIdeal Cert.KernelIdeal.Gen Cert.KernelIdeal.Value Cert.KernelIdeal.Pay
open Idealize.ShloMosaic Idealize.ShloMosaic.TcCoe Idealize.SL.Sem Idealize.ShloMosaic.ValueIdx Cert.Routing
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the host prepares before the launch -/

/-- The bf16 copy of the keys is, over the extended reals, the keys. -/
theorem V_keys16 (c : Dev nD) : (V m c main_v0 : S64x2048.Idx → EReal) = (m ((c : Thread nD τ).loc main_arg1) : S64x2048.Idx → EReal) := by
  dsimp only [V]
  simp only [hostOps0, hostOps0_1, hostOps0_2, List.flatten_cons, List.flatten_nil, List.append_nil, List.cons_append, List.nil_append]
  after_results
  rfl

/-- The row of key norms as the host computes it. -/
theorem V_norms (c : Dev nD) : (V m c main_v2 : S1x64.Idx → EReal)
    = broadcastInDim S1x64 ![1] bcast_S64_S1x64_1 (Host.sqrt (F := Ideal) (Host.reduceAdd (F := Ideal)
        (mulf (m ((c : Thread nD τ).loc main_arg1) : FVec Ideal S64x2048 .f32) (m ((c : Thread nD τ).loc main_arg1)))
        (constant (F := Ideal) S_ .f32 0x00000000#32) reducesTo_S64x2048_S64_d1 h_S_)) := by
  dsimp only [V]
  simp only [hostOps0, hostOps0_1, hostOps0_2, List.flatten_cons, List.flatten_nil, List.append_nil, List.cons_append, List.nil_append]
  after_results
  rfl

/-- The host's norm of key e: the square root of the sum of its squares (the sum starts from the zero word). -/
theorem hostNorm_apply (x1 : FVec Ideal S64x2048 .f32) (e : Fin 64) :
    Host.sqrt (F := Ideal) (Host.reduceAdd (F := Ideal) (mulf x1 x1) (constant (F := Ideal) S_ .f32 0x00000000#32) reducesTo_S64x2048_S64_d1 h_S_) (ix1 e)
      = keyNorm x1 e := by
  have hR : S64x2048.Reduces [1] S64 := by decide
  show Ideal.sqrt (Host.reduceAdd (F := Ideal) (mulf x1 x1) (constant (F := Ideal) S_ .f32 0x00000000#32) reducesTo_S64x2048_S64_d1 h_S_ (ix1 e)) = Ideal.sqrt _
  refine congrArg Ideal.sqrt ?_
  simp only [Host.reduceAdd, Ideal.hostReduceAdd_def]
  rw [Ideal.hostReduceAdd_single reducesTo_S64x2048_S64_d1 hR]
  show Ideal.ofBits .f32 0x00000000#32 + _ = _
  rw [Ideal.ofBits_zero_f32, zero_add]
  unfold dot
  refine Finset.sum_congr rfl fun k _ => ?_
  have hl : hR.lift (ix1 e) k = ix2 e k := funext fun a => Fin.ext (by match a with | ⟨0, _⟩ => rfl | ⟨1, _⟩ => rfl)
  rw [hl]
  rfl

/-- The prepared row of norms at key e. -/
theorem V_norms_apply (c : Dev nD) (e : Fin 64) :
    (V m c main_v2 : S1x64.Idx → EReal) (ix2 (0 : Fin 1) e) = keyNorm (m ((c : Thread nD τ).loc main_arg1)) e := by
  rw [V_norms]
  refine (broadcastInDim_apply _ bcast_S64_S1x64_1 _ (ix2 (0 : Fin 1) e) (ix1 e) (fun a => match a with
    | ⟨0, _⟩ => by show e.val = if (64 : Nat) = 1 then 0 else e.val; rw [if_neg (by decide)])).trans ?_
  exact hostNorm_apply _ e

/-! ## The blocks at a grid point -/

/-- The printed index maps over the 64 points: the row blocks move with the point, everything else stays at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of point t's block of z is row 512·t + p of z. -/
theorem zblk_apply (c : Dev nD) (t : Fin cfg0.N) (p : Fin 512) (d : Fin 2048) (n : Fin 32768) (hn : n.val = 512 * t.val + p.val) :
    (iblk m c 0 t : FVec Ideal S512x2048 .f32) (ix2 p d) = (m ((c : Thread nD τ).loc main_arg0) : S32768x2048.Idx → EReal) (ix2 n d) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = n.val; rw [e0, hn]; omega
  | ⟨1, _⟩ => show win0_0.index t (1 : Fin 2) * 2048 + 1 * d.val = d.val; rw [e1]; omega

/-- Every point's block of the keys is the key array. -/
theorem kblk_apply (c : Dev nD) (t : Fin cfg0.N) (e : Fin 64) (d : Fin 2048) :
    (iblk m c 1 t : FVec Ideal S64x2048 .f32) (ix2 e d) = (m ((c : Thread nD τ).loc main_arg1) : S64x2048.Idx → EReal) (ix2 e d) := by
  obtain ⟨-, -, e2, e3, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 64 + 1 * e.val = e.val; rw [e2]; omega
  | ⟨1, _⟩ => show win0_1.index t (1 : Fin 2) * 2048 + 1 * d.val = d.val; rw [e3]; omega

/-- Every point's block of the bf16 keys is, over the extended reals, the key array. -/
theorem k16blk_apply (c : Dev nD) (t : Fin cfg0.N) (e : Fin 64) (d : Fin 2048) :
    (iblk m c 2 t : FVec Ideal S64x2048 .bf16) (ix2 e d) = (m ((c : Thread nD τ).loc main_arg1) : S64x2048.Idx → EReal) (ix2 e d) := by
  obtain ⟨-, -, -, -, e4, e5, -⟩ := idx_facts t
  unfold iblk
  rw [View.read_apply]
  show (V m c main_v0 : S64x2048.Idx → EReal) _ = _
  rw [V_keys16]
  refine congrArg _ (funext fun a => Fin.ext ?_)
  match a with
  | ⟨0, _⟩ => show win0_2.index t (0 : Fin 2) * 64 + 1 * e.val = e.val; rw [e4]; omega
  | ⟨1, _⟩ => show win0_2.index t (1 : Fin 2) * 2048 + 1 * d.val = d.val; rw [e5]; omega

/-- Every point's block of the norms holds, at key e, that key's norm. -/
theorem nblk_apply (c : Dev nD) (t : Fin cfg0.N) (e : Fin 64) :
    (iblk m c 3 t : FVec Ideal S1x64 .f32) (ix2 (0 : Fin 1) e) = keyNorm (m ((c : Thread nD τ).loc main_arg1)) e := by
  obtain ⟨-, -, -, -, -, -, e6, e7, -⟩ := idx_facts t
  unfold iblk
  rw [View.read_apply]
  show (V m c main_v2 : S1x64.Idx → EReal) _ = _
  refine Eq.trans (congrArg _ (funext fun a => Fin.ext ?_)) (V_norms_apply m c e)
  match a with
  | ⟨0, _⟩ => show win0_3.index t (0 : Fin 2) * 1 + 1 * 0 = 0; rw [e6]
  | ⟨1, _⟩ => show win0_3.index t (1 : Fin 2) * 64 + 1 * e.val = e.val; rw [e7]; omega

end Cert.KernelIdeal.Arr

end
-- ==== Proof.KernelRun.lean ====
/-
  The two result arrays after the kernel's run.

  What point t writes back to the similarity is block t — rows 512·t … 512·t + 511 — of `simArr` of the two
  arguments, and to the weighted expert block t of `mixArr`: the stored values of KernelPay.lean read over the
  blocks of KernelArr.lean. Row r lies in the block of point r / 512, so the 64 blocks cover each array and each
  array ends as that one function of the arguments.
-/
import proofs.«407764_j71502615544488_3_alg».proof.Proof.KernelArr

noncomputable section

open scoped BigOperators

namespace Cert.KernelIdeal.Arr

open Cert.KernelIdeal Cert.KernelIdeal.Gen Cert.KernelIdeal.Value Cert.KernelIdeal.Pay
open Idealize.ShloMosaic Idealize.ShloMosaic.TcCoe Idealize.SL.Sem Idealize.ShloMosaic.ValueIdx Cert.Routing
open Idealize.ShloMosaic.Pipeline (Dat)

variable (m : (ℓ : Loc nD τ sig) → Buf (Elt Ideal) ℓ) (ρ : Dev nD → PrngReg)

/-- The first stored value at any entry of its block. -/
theorem pay1_at (x0 : FVec Ideal S512x2048 .f32) (x1 : FVec Ideal S64x2048 .f32) (x3 : FVec Ideal S1x64 .f32) (j : S512x64.Idx) :
    k0_pay1 (F := Ideal) x0 x1 x3 j
      = sim (fun d => x0 (ix2 (j 0) d)) (fun e d => x1 (ix2 e d)) (fun e => x3 (ix2 (0 : Fin 1) e)) (j 1) := by
  obtain ⟨p, q, rfl⟩ : ∃ (p : Fin 512) (q : Fin 64), j = ix2 p q := ⟨j 0, j 1, eq_ix2 j⟩
  exact pay1_apply x0 x1 x3 p q

/-- The second stored value at any entry of its block. -/
theorem pay2_at (x0 : FVec Ideal S512x2048 .f32) (x1 : FVec Ideal S64x2048 .f32) (x2 : FVec Ideal S64x2048 .bf16) (x3 : FVec Ideal S1x64 .f32) (j : S512x2048.Idx) :
    k0_pay2 (F := Ideal) x0 x1 x2 x3 j
      = mix (sim (fun d => x0 (ix2 (j 0) d)) (fun e d => x1 (ix2 e d)) (fun e => x3 (ix2 (0 : Fin 1) e))) (fun e d => x2 (ix2 e d)) (j 1) := by
  obtain ⟨p, d, rfl⟩ : ∃ (p : Fin 512) (d : Fin 2048), j = ix2 p d := ⟨j 0, j 1, eq_ix2 j⟩
  refine (pay2_apply x0 x1 x2 x3 p d).trans ?_
  exact congrArg (fun s => mix s (fun e d => x2 (ix2 e d)) d) (funext fun e => pay1_apply x0 x1 x3 p e)

/-- Row p of point t's block, as a row of z. -/
theorem zrow_eq (c : Dev nD) (t : Fin cfg0.N) (p : Fin 512) (n : Fin 32768) (hn : n.val = 512 * t.val + p.val) :
    (fun d : Fin 2048 => (iblk m c 0 t : FVec Ideal S512x2048 .f32) (ix2 p d)) = zRow (m ((c : Thread nD τ).loc main_arg0)) n :=
  funext fun d => zblk_apply m c t p d n hn

theorem keys_eq (c : Dev nD) (t : Fin cfg0.N) :
    (fun (e : Fin 64) (d : Fin 2048) => (iblk m c 1 t : FVec Ideal S64x2048 .f32) (ix2 e d)) = keys (m ((c : Thread nD τ).loc main_arg1)) :=
  funext fun e => funext fun d => kblk_apply m c t e d

theorem keys16_eq (c : Dev nD) (t : Fin cfg0.N) :
    (fun (e : Fin 64) (d : Fin 2048) => (iblk m c 2 t : FVec Ideal S64x2048 .bf16) (ix2 e d)) = keys (m ((c : Thread nD τ).loc main_arg1)) :=
  funext fun e => funext fun d => k16blk_apply m c t e d

theorem norms_eq (c : Dev nD) (t : Fin cfg0.N) :
    (fun e : Fin 64 => (iblk m c 3 t : FVec Ideal S1x64 .f32) (ix2 (0 : Fin 1) e)) = keyNorm (m ((c : Thread nD τ).loc main_arg1)) :=
  funext fun e => nblk_apply m c t e

/-! ## The similarity -/

/-- WHAT POINT t WRITES BACK to the similarity is block t of `simArr` of the arguments. -/
theorem flushed4_eq (c : Dev nD) (t : Fin cfg0.N) :
    (dats m 0 c).flushed 4 t
      = ((cfg0.win 4).blk t).view.read (Elt Ideal) (simArr (m ((c : Thread nD τ).loc main_arg0)) (m ((c : Thread nD τ).loc main_arg1))) := by
  rw [flushed4]
  unfold out0_4
  rw [View.canon_unit_zero hz]
  simp only [View.ld_unit_zero (S := S512x2048) hz, View.ld_unit_zero (S := S64x2048) hz, View.ld_unit_zero (S := S1x64) hz]
  obtain ⟨-, -, -, -, -, -, -, -, e8, e9, -⟩ := idx_facts t
  funext j
  show k0_pay1 (F := Ideal) (iblk m c 0 t) (iblk m c 1 t) (iblk m c 3 t) j
    = simArr (m ((c : Thread nD τ).loc main_arg0)) (m ((c : Thread nD τ).loc main_arg1)) (((cfg0.win 4).blk t).view.emb j)
  refine (pay1_at (iblk m c 0 t) (iblk m c 1 t) (iblk m c 3 t) j).trans ?_
  unfold simArr
  have h0 : ((((cfg0.win 4).blk t).view.emb j) 0).val = 512 * t.val + (j 0).val := by
    show win0_4.index t (0 : Fin 2) * 512 + 1 * (j 0).val = _; rw [e8]; omega
  have h1 : (j 1) = (((cfg0.win 4).blk t).view.emb j) 1 := Fin.ext (by
    show (j 1).val = win0_4.index t (1 : Fin 2) * 64 + 1 * (j 1).val; rw [e9]; omega)
  rw [zrow_eq m c t (j 0) _ h0, keys_eq, norms_eq, h1]

theorem mem_blk4 (t : Fin cfg0.N) (i : S32768x64.Idx) :
    i ∈ ((cfg0.win 4).blk t).view.set ↔ ∀ a : Fin 2, win0_4.index t a * S512x64.size a ≤ (i a).val ∧ (i a).val < win0_4.index t a * S512x64.size a + S512x64.size a := by
  show i ∈ ((View.whole main_v3_0).slice (win0_4.rect t)).set ↔ _
  rw [View.set_slice_whole, Rect.mem_set_unit]
  exact Iff.rfl

/-- Row r of the similarity is in the block of point r / 512. -/
theorem cover4 (i : S32768x64.Idx) : ∃ t : Fin cfg0.N, (cfg0.win 4).flush t = true ∧ i ∈ ((cfg0.win 4).blk t).view.set := by
  have hN : cfg0.N = 64 := N_0
  have hi0 : (i 0).val < 32768 := (i 0).isLt
  have hi1 : (i 1).val < 64 := (i 1).isLt
  have ht : (i 0).val / 512 < cfg0.N := by rw [hN]; omega
  obtain ⟨-, -, -, -, -, -, -, -, e8, e9, -⟩ := idx_facts ⟨(i 0).val / 512, ht⟩
  have e8' : win0_4.index ⟨(i 0).val / 512, ht⟩ (0 : Fin 2) = (i 0).val / 512 := e8
  refine ⟨⟨(i 0).val / 512, ht⟩, flush0_4 _, ?_⟩
  rw [mem_blk4]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [e8']; omega
  | ⟨1, _⟩ =>
    show win0_4.index ⟨(i 0).val / 512, ht⟩ (1 : Fin 2) * 64 ≤ (i 1).val ∧ (i 1).val < win0_4.index ⟨(i 0).val / 512, ht⟩ (1 : Fin 2) * 64 + 64
    rw [e9]; omega

/-- THE SIMILARITY after the run. -/
theorem final4 (c : Dev nD) :
    (dats m 0 c).arrAt 4 cfg0.N = simArr (m ((c : Thread nD τ).loc main_arg0)) (m ((c : Thread nD τ).loc main_arg1)) :=
  (dats m 0 c).arrAt_eq_of_cover 4 _ (fun t _ => flushed4_eq m c t) cover4

/-! ## The weighted expert -/

/-- WHAT POINT t WRITES BACK to the weighted expert is block t of `mixArr` of the arguments. -/
theorem flushed5_eq (c : Dev nD) (t : Fin cfg0.N) :
    (dats m 0 c).flushed 5 t
      = ((cfg0.win 5).blk t).view.read (Elt Ideal) (mixArr (m ((c : Thread nD τ).loc main_arg0)) (m ((c : Thread nD τ).loc main_arg1))) := by
  rw [flushed5]
  unfold out0_5
  rw [View.canon_unit_zero hz]
  simp only [View.ld_unit_zero (S := S512x2048) hz, View.ld_unit_zero (S := S64x2048) hz, View.ld_unit_zero (S := S1x64) hz]
  obtain ⟨-, -, -, -, -, -, -, -, -, -, e10, e11⟩ := idx_facts t
  funext j
  show k0_pay2 (F := Ideal) (iblk m c 0 t) (iblk m c 1 t) (iblk m c 2 t) (iblk m c 3 t) j
    = mixArr (m ((c : Thread nD τ).loc main_arg0)) (m ((c : Thread nD τ).loc main_arg1)) (((cfg0.win 5).blk t).view.emb j)
  refine (pay2_at (iblk m c 0 t) (iblk m c 1 t) (iblk m c 2 t) (iblk m c 3 t) j).trans ?_
  unfold mixArr
  have h0 : ((((cfg0.win 5).blk t).view.emb j) 0).val = 512 * t.val + (j 0).val := by
    show win0_5.index t (0 : Fin 2) * 512 + 1 * (j 0).val = _; rw [e10]; omega
  have h1 : (j 1) = (((cfg0.win 5).blk t).view.emb j) 1 := Fin.ext (by
    show (j 1).val = win0_5.index t (1 : Fin 2) * 2048 + 1 * (j 1).val; rw [e11]; omega)
  rw [zrow_eq m c t (j 0) _ h0, keys_eq, keys16_eq, norms_eq, h1]

theorem mem_blk5 (t : Fin cfg0.N) (i : S32768x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v3_1).slice (win0_5.rect t)).set ↔ _
  rw [View.set_slice_whole, Rect.mem_set_unit]
  exact Iff.rfl

/-- Row r of the weighted expert is in the block of point r / 512. -/
theorem cover5 (i : S32768x2048.Idx) : ∃ t : Fin cfg0.N, (cfg0.win 5).flush t = true ∧ i ∈ ((cfg0.win 5).blk t).view.set := by
  have hN : cfg0.N = 64 := N_0
  have hi0 : (i 0).val < 32768 := (i 0).isLt
  have hi1 : (i 1).val < 2048 := (i 1).isLt
  have ht : (i 0).val / 512 < cfg0.N := by rw [hN]; omega
  obtain ⟨-, -, -, -, -, -, -, -, -, -, e10, e11⟩ := idx_facts ⟨(i 0).val / 512, ht⟩
  have e10' : win0_5.index ⟨(i 0).val / 512, ht⟩ (0 : Fin 2) = (i 0).val / 512 := e10
  refine ⟨⟨(i 0).val / 512, ht⟩, flush0_5 _, ?_⟩
  rw [mem_blk5]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e10']; omega
  | ⟨1, _⟩ =>
    show win0_5.index ⟨(i 0).val / 512, ht⟩ (1 : Fin 2) * 2048 ≤ (i 1).val ∧ (i 1).val < win0_5.index ⟨(i 0).val / 512, ht⟩ (1 : Fin 2) * 2048 + 2048
    rw [e11]; omega

/-- THE WEIGHTED EXPERT after the run. -/
theorem final5 (c : Dev nD) :
    (dats m 0 c).arrAt 5 cfg0.N = mixArr (m ((c : Thread nD τ).loc main_arg0)) (m ((c : Thread nD τ).loc main_arg1)) :=
  (dats m 0 c).arrAt_eq_of_cover 5 _ (fun t _ => flushed5_eq m c t) cover5

/-! ## The run, read -/

/-- Every weakly fair execution of the kernel's program ends with the similarity at `simArr` and the weighted expert at
    `mixArr` of the two arguments, the arguments unchanged. -/
theorem run : θ_run defs (onTc (τ := τ) (main (F := Ideal))) ⟨m, fun _ => 0, ρ⟩ fun r => ∀ c : Dev nD,
      r.2.mem ((c : Thread nD τ).loc main_v3_0) = simArr (m ((c : Thread nD τ).loc main_arg0)) (m ((c : Thread nD τ).loc main_arg1))
      ∧ r.2.mem ((c : Thread nD τ).loc main_v3_1) = mixArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final4 m c), (h c).2.1.trans (final5 m c), (h c).2.2.1, (h c).2.2.2⟩)
    (run_blocks m ρ)

end Cert.KernelIdeal.Arr

end
-- ==== Proof.RefValue.lean ====
/-
  The reference's two results, entry by entry, as the row-wise cosine routing of Spec.lean.

  The reference computes on whole arrays what the kernel computes block by block: the product of z with the keys
  over the 2048 coordinates, each row's and each key's norm (the square root of a sum of squares started from the
  zero word), their product clamped below by ε, the quotient; then along each row of the similarity its maximum
  (taken once more against -∞, which changes nothing), the exponentials of the differences, their sum, the
  quotient, and the product with the keys over the 64 keys. Every stage is read at an entry by the generated
  reading lemmas; the row maximum, a fold they do not read, is read here as the maximum over the row.
-/
import proofs.«407764_j71502615544488_3_alg».proof.Proof.Gen.ReferenceIdeal.Read
import proofs.«407764_j71502615544488_3_alg».proof.Proof.Spec
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Routing

variable (x0 : FVec Ideal S32768x2048 .f32) (x1 : FVec Ideal S64x2048 .f32)

/-! ## The composed index functions of the reading lemmas, by coordinates -/

theorem e_l0 (n : Fin 32768) (e : Fin 64) (k : Fin 2048) : lidx_main_v0 (ix2 n e) k = ix2 n k :=
  funext fun a => Fin.ext (by match a with | ⟨0, _⟩ => rfl | ⟨1, _⟩ => rfl)
theorem e_r0 (n : Fin 32768) (e : Fin 64) (k : Fin 2048) : ridx_main_v0 (ix2 n e) k = ix2 e k :=
  funext fun a => Fin.ext (by match a with | ⟨0, _⟩ => rfl | ⟨1, _⟩ => rfl)
theorem e_zn (n : Fin 32768) (e : Fin 64) (k : Fin 2048) : idx_main_call0_v1 (idx_main_v3 (idx_main_v5 (ix2 n e))) k = ix2 n k :=
  funext fun a => Fin.ext (by match a with | ⟨0, _⟩ => rfl | ⟨1, _⟩ => rfl)
theorem e_kn (n : Fin 32768) (e : Fin 64) (k : Fin 2048) : idx_main_call1_v1 (idx_main_v4 (idx_main_v6 (ix2 n e))) k = ix2 e k :=
  funext fun a => Fin.ext (by match a with | ⟨0, _⟩ => rfl | ⟨1, _⟩ => rfl)
theorem e_mx (n : Fin 32768) (e : Fin 64) : idx_main_v14 (idx_main_v15 (ix2 n e)) = ix1 n :=
  funext fun a => Fin.ext (by match a with | ⟨0, _⟩ => rfl)
theorem e_sm (n : Fin 32768) (e : Fin 64) : idx_main_v19 (idx_main_v20 (ix2 n e)) = ix1 n :=
  funext fun a => Fin.ext (by match a with | ⟨0, _⟩ => rfl)
theorem e_s18 (n : Fin 32768) (k : Fin 64) : idx_main_v18 (ix1 n) k = ix2 n k :=
  funext fun a => Fin.ext (by match a with | ⟨0, _⟩ => rfl | ⟨1, _⟩ => rfl)
theorem e_l22 (n : Fin 32768) (d : Fin 2048) (k : Fin 64) : lidx_main_v22 (ix2 n d) k = ix2 n k :=
  funext fun a => Fin.ext (by match a with | ⟨0, _⟩ => rfl | ⟨1, _⟩ => rfl)
theorem e_r22 (n : Fin 32768) (d : Fin 2048) (k : Fin 64) : ridx_main_v22 (ix2 n d) k = ix2 k d :=
  funext fun a => Fin.ext (by match a with | ⟨0, _⟩ => rfl | ⟨1, _⟩ => rfl)

/-! ## The similarity -/

/-- Entry (n, e) of the reference's similarity is the cosine of row n against key e. -/
theorem sim_apply (n : Fin 32768) (e : Fin 64) :
    val_main_v10 (F := Ideal) x0 x1 (ix2 n e) = sim (zRow x0 n) (keys x1) (keyNorm x1) e := by
  rw [val_main_v10_apply, val_main_v0_apply, val_main_v9_apply, val_main_v7_apply, val_main_v5_apply, val_main_v3_apply,
    val_main_v1_apply, val_main_call0_v1_apply, val_main_v6_apply, val_main_v4_apply, val_main_v2_apply, val_main_call1_v1_apply,
    val_main_v8_apply, val_main_cst_apply, val_main_call0_cst_apply, val_main_call1_cst_apply]
  simp only [val_main_call0_v0_apply, val_main_call1_v0_apply, e_l0, e_r0, e_zn, e_kn, Ideal.hostDivf_def, Ideal.maximumf_def,
    Ideal.mulf_def, Ideal.hostUnary_sqrt_def, Ideal.ofBits_def, Ideal.ofBits_zero_f32, zero_add]
  rfl

/-- Row n of the reference's similarity. -/
theorem sim_row (n : Fin 32768) :
    (fun e : Fin 64 => val_main_v10 (F := Ideal) x0 x1 (ix2 n e)) = sim (zRow x0 n) (keys x1) (keyNorm x1) :=
  funext fun e => sim_apply x0 x1 n e

/-! ## The softmax along a row, and the product with the keys -/

/-- The reference's row maximum (the fold, then once more against -∞) is the maximum of the row. -/
theorem max_apply (n : Fin 32768) :
    val_main_v13 (F := Ideal) x0 x1 (ix1 n) = rowMax (sim (zRow x0 n) (keys x1) (keyNorm x1)) := by
  have hR : S32768x64.Reduces [1] S32768 := by decide
  rw [val_main_v13_apply, val_main_v12_apply, val_main_cst_1_apply]
  unfold val_main_v11
  rw [Host.reduce_eq_fold_single FloatOps.maximumf _ _ reducesTo_S32768x64_S32768_d1 hR h_S_]
  have hf : (val_main_v10 (F := Ideal) x0 x1 ∘ hR.lift (ix1 n)) = sim (zRow x0 n) (keys x1) (keyNorm x1) := by
    rw [← sim_row x0 x1 n]
    funext k
    exact congrArg (val_main_v10 (F := Ideal) x0 x1) (funext fun a => Fin.ext (by match a with | ⟨0, _⟩ => rfl | ⟨1, _⟩ => rfl))
  rw [hf]
  exact max_negInf_rowMax _

/-- Entry (n, e) of the exponentials. -/
theorem exp_apply (n : Fin 32768) (e : Fin 64) :
    val_main_v17 (F := Ideal) x0 x1 (ix2 n e) = expo (sim (zRow x0 n) (keys x1) (keyNorm x1)) e := by
  rw [val_main_v17_apply, val_main_v16_apply, val_main_v15_apply, val_main_v14_apply, e_mx, max_apply, sim_apply]
  rfl

/-- The sum of row n's exponentials. -/
theorem sum_apply (n : Fin 32768) :
    val_main_v18 (F := Ideal) x0 x1 (ix1 n) = ∑ e : Fin 64, expo (sim (zRow x0 n) (keys x1) (keyNorm x1)) e := by
  rw [val_main_v18_apply, val_main_cst_2_apply]
  simp only [e_s18, exp_apply, Ideal.ofBits_def, Ideal.ofBits_zero_f32, zero_add]

/-- Entry (n, e) of the softmax. -/
theorem soft_apply (n : Fin 32768) (e : Fin 64) :
    val_main_v21 (F := Ideal) x0 x1 (ix2 n e) = soft (sim (zRow x0 n) (keys x1) (keyNorm x1)) e := by
  rw [val_main_v21_apply, val_main_v20_apply, val_main_v19_apply, e_sm, sum_apply, exp_apply]
  rfl

/-- Entry (n, d) of the reference's weighted expert. -/
theorem mix_apply (n : Fin 32768) (d : Fin 2048) :
    val_main_v22 (F := Ideal) x0 x1 (ix2 n d) = mix (sim (zRow x0 n) (keys x1) (keyNorm x1)) (keys x1) d := by
  rw [val_main_v22_apply]
  simp only [e_l22, e_r22, soft_apply]
  rfl

/-! ## The two results as whole arrays -/

theorem sim_eq : val_main_v10 (F := Ideal) x0 x1 = simArr x0 x1 := by
  funext i
  obtain ⟨n, e, rfl⟩ : ∃ (n : Fin 32768) (e : Fin 64), i = ix2 n e := ⟨i 0, i 1, eq_ix2 i⟩
  exact sim_apply x0 x1 n e

theorem mix_eq : val_main_v22 (F := Ideal) x0 x1 = mixArr x0 x1 := by
  funext i
  obtain ⟨n, d, rfl⟩ : ∃ (n : Fin 32768) (d : Fin 2048), i = ix2 n d := ⟨i 0, i 1, eq_ix2 i⟩
  exact mix_apply x0 x1 n d

end Cert.ReferenceIdeal.RefValue

end
-- ==== Proof.lean ====
/- Cosine-similarity routing: similarity = cos(z, keys) and weighted_expert = softmax(similarity) · keys, the kernel
   against its jnp reference, over the extended reals.

   Both programs compute, for every row z_n of z and every key k_e,
     sim(n, e) = (Σ_d z_n[d]·k_e[d]) / max(‖z_n‖·‖k_e‖, ε),   ‖x‖ = √(Σ_d x[d]²),
   then along each row the softmax  p(n, e) = exp(sim(n, e) − max_e' sim(n, e')) / Σ_e' exp(sim(n, e') − max …),
   then  w(n, d) = Σ_e p(n, e)·k_e[d].
   The kernel does it on blocks of 512 rows with the key norms prepared by the host and the second product on bf16
   copies; over the extended reals a change of float format is the identity, a matrix product is the sum over its
   contracted axis whatever its precision, and a lane reduction is the sum (or maximum) over the row, so the two
   programs are the same function of the arguments entry by entry (Spec.lean: `simArr`, `mixArr`). No law beyond
   reading each operation at an entry is used, so the finiteness precondition is never opened.
   The kernel's side: KernelPay.lean (what the body stores), KernelArr.lean (the blocks a grid point sees),
   KernelRun.lean (the arrays after the run). The reference's side: RefValue.lean. The frames are the generated ones;
   the idealization rewrote nothing, so `preserves` is trivial. -/
import proofs.«407764_j71502615544488_3_alg».proof.Defs
import proofs.«407764_j71502615544488_3_alg».proof.Proof.Gen.Kernel
import proofs.«407764_j71502615544488_3_alg».proof.Proof.Gen.Kernel.Skeleton
import proofs.«407764_j71502615544488_3_alg».proof.Proof.Gen.Kernel.Launch
import proofs.«407764_j71502615544488_3_alg».proof.Proof.Gen.Kernel.Points
import proofs.«407764_j71502615544488_3_alg».proof.Proof.Gen.Kernel.Frame
import proofs.«407764_j71502615544488_3_alg».proof.Proof.Gen.KernelIdeal
import proofs.«407764_j71502615544488_3_alg».proof.Proof.Gen.KernelIdeal.Skeleton
import proofs.«407764_j71502615544488_3_alg».proof.Proof.Gen.KernelIdeal.Launch
import proofs.«407764_j71502615544488_3_alg».proof.Proof.Gen.KernelIdeal.Points
import proofs.«407764_j71502615544488_3_alg».proof.Proof.Gen.KernelIdeal.Frame
import proofs.«407764_j71502615544488_3_alg».proof.Proof.Gen.KernelIdeal.Value
import proofs.«407764_j71502615544488_3_alg».proof.Proof.Gen.ReferenceIdeal
import proofs.«407764_j71502615544488_3_alg».proof.Proof.Gen.ReferenceIdeal.Run
import proofs.«407764_j71502615544488_3_alg».proof.Proof.Gen.ReferenceIdeal.Read
import proofs.«407764_j71502615544488_3_alg».proof.Proof.Gen.Pre_finite_inputs
import proofs.«407764_j71502615544488_3_alg».proof.Proof.KernelRun
import proofs.«407764_j71502615544488_3_alg».proof.Proof.RefValue
import Idealize.ShloMosaic.Adequacy
import Idealize.ShloMosaic.Init

noncomputable section

namespace Cert.Proof

open Idealize.ShloMosaic Idealize.SL.Sem Cert.Kernel

/-- The reference's frame: its generated run with the results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- Both programs end with the similarity at `simArr` and the weighted expert at `mixArr` of arguments that agree. -/
theorem algebraic : Cert.algebraic_KernelIdeal_ReferenceIdeal := by
  intro m ρ m' ρ' _ hagree
  refine ⟨fun c => Cert.Routing.simArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Routing.mixArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v10_eq, Cert.ReferenceIdeal.RefValue.sim_eq, (hagree c).1, (hagree c).2]
  · rw [(h c).2.1, Cert.ReferenceIdeal.Read.val_main_v22_eq, Cert.ReferenceIdeal.RefValue.mix_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
